-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x128 : Shape := ⟨2, ![65536, 128]⟩
abbrev S256x512 : Shape := ⟨2, ![256, 512]⟩
abbrev S128x512 : Shape := ⟨2, ![128, 512]⟩
abbrev S3x512 : Shape := ⟨2, ![3, 512]⟩
abbrev S512x512 : Shape := ⟨2, ![512, 512]⟩
abbrev S512x256 : Shape := ⟨2, ![512, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S256x512 : S_.BroadcastsInDim S256x512 (![] : Fin 0 → Fin S256x512.rank)
  reducesTo_S256x512_S_d0_1 : S256x512.ReducesTo [0, 1] S_
  bcast_S_S128x512 : S_.BroadcastsInDim S128x512 (![] : Fin 0 → Fin S128x512.rank)
  reducesTo_S128x512_S_d0_1 : S128x512.ReducesTo [0, 1] S_
  bcast_S_S3x512 : S_.BroadcastsInDim S3x512 (![] : Fin 0 → Fin S3x512.rank)
  reducesTo_S3x512_S_d0_1 : S3x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S3x512 .f32) (main_arg5 : FVec F S512x512 .f32) (main_arg6 : FVec F S512x256 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S65536x256 .f32) (main_arg1 : FVec F S65536x128 .f32) (main_arg2 : FVec F S256x512 .f32) (main_arg3 : FVec F S128x512 .f32) (main_arg4 : FVec F S3x512 .f32) (main_arg5 : FVec F S512x512 .f32) (main_arg6 : FVec F S512x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S65536x256 : Shape := ⟨2, ![65536, 256]⟩
abbrev S65536x128 : Shape := ⟨2, ![65536, 128]⟩
abbrev S256x512 : Shape := ⟨2, ![256, 512]⟩
abbrev S128x512 : Shape := ⟨2, ![128, 512]⟩
abbrev S3x512 : Shape := ⟨2, ![3, 512]⟩
abbrev S512x512 : Shape := ⟨2, ![512, 512]⟩
abbrev S512x256 : Shape := ⟨2, ![512, 256]⟩
abbrev S2048x256 : Shape := ⟨2, ![2048, 256]⟩
abbrev S2048x128 : Shape := ⟨2, ![2048, 128]⟩
abbrev S2048x512 : Shape := ⟨2, ![2048, 512]⟩
abbrev S1x512 : Shape := ⟨2, ![1, 512]⟩
abbrev S1x256 : Shape := ⟨2, ![1, 256]⟩

abbrev nBuf : Space → Nat
  | .hbm => 12
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x128, .f32⟩
  | .hbm, ⟨2, _⟩ => ⟨S256x512, .f32⟩
  | .hbm, ⟨3, _⟩ => ⟨S128x512, .f32⟩
  | .hbm, ⟨4, _⟩ => ⟨S3x512, .f32⟩
  | .hbm, ⟨5, _⟩ => ⟨S512x512, .f32⟩
  | .hbm, ⟨6, _⟩ => ⟨S512x256, .f32⟩
  | .hbm, ⟨7, _⟩ => ⟨S256x512, .bf16⟩
  | .hbm, ⟨8, _⟩ => ⟨S128x512, .bf16⟩
  | .hbm, ⟨9, _⟩ => ⟨S512x512, .bf16⟩
  | .hbm, ⟨10, _⟩ => ⟨S512x256, .bf16⟩
  | .hbm, ⟨11, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x128, .f32⟩
  | .local _ .vmem, ⟨3, _⟩ => ⟨S2048x128, .f32⟩
  | .local _ .vmem, ⟨4, _⟩ => ⟨S256x512, .bf16⟩
  | .local _ .vmem, ⟨5, _⟩ => ⟨S128x512, .bf16⟩
  | .local _ .vmem, ⟨6, _⟩ => ⟨S3x512, .f32⟩
  | .local _ .vmem, ⟨7, _⟩ => ⟨S512x512, .bf16⟩
  | .local _ .vmem, ⟨8, _⟩ => ⟨S512x256, .bf16⟩
  | .local _ .vmem, ⟨9, _⟩ => ⟨S2048x256, .f32⟩
  | .local _ .vmem, ⟨10, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S2048x128_S2048x128_0_0 : ∀ a, (![0, 0] : Fin 2 → Nat) a + S2048x128.size a ≤ S2048x128.size a
  h_S2048x128 : 0 < S2048x128.numel
  inb_S3x512_S3x512_0_0 : ∀ a, (![0, 0] : Fin 2 → Nat) a + S3x512.size a ≤ S3x512.size a
  h_S3x512 : 0 < S3x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S3x512_o0_0_S1x512 : S3x512.Slices ![0, 0] S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S3x512_o1_0_S1x512 : S3x512.Slices ![1, 0] S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S3x512_o2_0_S1x256 : S3x512.Slices ![2, 0] S1x256
  broadcasts_S1x256_S2048x256 : S1x256.Broadcasts S2048x256
  dot_S2048x256_S256x512_S2048x512_1_0_0_1_n_n_wf : DotDims.WF S2048x256 S256x512 S2048x512 [1] [0] [0] [1] [] []
  dot_S2048x128_S128x512_S2048x512_1_0_0_1_n_n_wf : DotDims.WF S2048x128 S128x512 S2048x512 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x128 : Shape := ⟨2, ![65536, 128]⟩
abbrev S256x512 : Shape := ⟨2, ![256, 512]⟩
abbrev S128x512 : Shape := ⟨2, ![128, 512]⟩
abbrev S3x512 : Shape := ⟨2, ![3, 512]⟩
abbrev S512x512 : Shape := ⟨2, ![512, 512]⟩
abbrev S512x256 : Shape := ⟨2, ![512, 256]⟩
abbrev S1024x256 : Shape := ⟨2, ![1024, 256]⟩
abbrev S1024x128 : Shape := ⟨2, ![1024, 128]⟩
abbrev S1024x512 : Shape := ⟨2, ![1024, 512]⟩
abbrev S1x512 : Shape := ⟨2, ![1, 512]⟩
abbrev S1x256 : Shape := ⟨2, ![1, 256]⟩

abbrev nBuf : Space → Nat
  | .hbm => 8
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x128, .f32⟩
  | .hbm, ⟨2, _⟩ => ⟨S256x512, .f32⟩
  | .hbm, ⟨3, _⟩ => ⟨S128x512, .f32⟩
  | .hbm, ⟨4, _⟩ => ⟨S3x512, .f32⟩
  | .hbm, ⟨5, _⟩ => ⟨S512x512, .f32⟩
  | .hbm, ⟨6, _⟩ => ⟨S512x256, .f32⟩
  | .hbm, ⟨7, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S256x512, .f32⟩
  | .local _ .vmem, ⟨5, _⟩ => ⟨S128x512, .f32⟩
  | .local _ .vmem, ⟨6, _⟩ => ⟨S3x512, .f32⟩
  | .local _ .vmem, ⟨7, _⟩ => ⟨S512x512, .f32⟩
  | .local _ .vmem, ⟨8, _⟩ => ⟨S512x256, .f32⟩
  | .local _ .vmem, ⟨9, _⟩ => ⟨S1024x256, .f32⟩
  | .local _ .vmem, ⟨10, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  inb_S3x512_S3x512_0_0 : ∀ a, (![0, 0] : Fin 2 → Nat) a + S3x512.size a ≤ S3x512.size a
  h_S3x512 : 0 < S3x512.numel
  inb_S256x512_S256x512_0_0 : ∀ a, (![0, 0] : Fin 2 → Nat) a + S256x512.size a ≤ S256x512.size a
  h_S256x512 : 0 < S256x512.numel
  inb_S128x512_S128x512_0_0 : ∀ a, (![0, 0] : Fin 2 → Nat) a + S128x512.size a ≤ S128x512.size a
  h_S128x512 : 0 < S128x512.numel
  slices_S3x512_o0_0_S1x512 : S3x512.Slices ![0, 0] S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  slices_S3x512_o1_0_S1x512 : S3x512.Slices ![1, 0] S1x512
  inb_S512x256_S512x256_0_0 : ∀ a, (![0, 0] : Fin 2 → Nat) a + S512x256.size a ≤ S512x256.size a
  h_S512x256 : 0 < S512x256.numel
  slices_S3x512_o2_0_S1x256 : S3x512.Slices ![2, 0] S1x256
  broadcasts_S1x256_S1024x256 : S1x256.Broadcasts S1024x256
  dot_S1024x256_S256x512_S1024x512_1_0_0_1_n_n_wf : DotDims.WF S1024x256 S256x512 S1024x512 [1] [0] [0] [1] [] []
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.MlpSpec.lean ====
/-
  The function both programs compute, and the two vector reads its layers are made of.

  A row of the result depends on the same row of `state` and `action` only: with `s` and `a` that row's entries,
    hid1 k = max ((Σ j, s j · W1s[j,k]) + (Σ j, a j · W1a[j,k]) + b[0,k]) 0
    hid2 k = max ((Σ j, hid1 j · W2[j,k]) + b[1,k]) 0
    out  q = (Σ j, hid2 j · W3[j,q]) + b[2,q]
  on the extended reals, the sums in the order the matrix product takes them. `G` is that function row by row over the
  whole `[65536, 256]` result. Nothing here depends on how the rows are cut into blocks.
-/
import proofs.«165874_g2000503642115552_pallasbulk_442_2_alg».proof.Proof.LibRowOps

noncomputable section

namespace Cert.Mlp

open Idealize.ShloMosaic Idealize.ShloMosaic.ValueIdx

/-- The zero the rectifier compares with, kept as the word the programs spell: it is never evaluated. -/
abbrev z0 : EReal := (Scalar.ofBits (F := Ideal) .f32 0x00000000#32 : Ideal .f32)

section Row
variable (w1s : (⟨2, ![256, 512]⟩ : Shape).Idx → EReal) (w1a : (⟨2, ![128, 512]⟩ : Shape).Idx → EReal)
  (b : (⟨2, ![3, 512]⟩ : Shape).Idx → EReal) (w2 : (⟨2, ![512, 512]⟩ : Shape).Idx → EReal)
  (w3 : (⟨2, ![512, 256]⟩ : Shape).Idx → EReal)

/-- The first hidden layer of one row. -/
def hid1 (s : Fin 256 → EReal) (a : Fin 128 → EReal) (k : Fin 512) : EReal :=
  max (((∑ j : Fin 256, s j * w1s (ix2 j k)) + ∑ j : Fin 128, a j * w1a (ix2 j k)) + b (ix2 (0 : Fin 3) k)) z0

/-- The second hidden layer of one row. -/
def hid2 (s : Fin 256 → EReal) (a : Fin 128 → EReal) (k : Fin 512) : EReal :=
  max ((∑ j : Fin 512, hid1 w1s w1a b s a j * w2 (ix2 j k)) + b (ix2 (1 : Fin 3) k)) z0

/-- The output layer of one row; its bias is the first 256 entries of the table's last row. -/
def outRow (s : Fin 256 → EReal) (a : Fin 128 → EReal) (q : Fin 256) : EReal :=
  (∑ j : Fin 512, hid2 w1s w1a b w2 s a j * w3 (ix2 j q)) + b (ix2 (2 : Fin 3) (Fin.castLE (by decide) q))

/-- The whole result: row `i 0` of `state` and `action` through the three layers, read at column `i 1`. -/
def G (s : (⟨2, ![65536, 256]⟩ : Shape).Idx → EReal) (a : (⟨2, ![65536, 128]⟩ : Shape).Idx → EReal) :
    (⟨2, ![65536, 256]⟩ : Shape).Idx → EReal :=
  fun i => outRow w1s w1a b w2 w3 (fun j => s (ix2 (i 0) j)) (fun j => a (ix2 (i 0) j)) (i 1)

end Row

/-- Equal weights, equal row data and an equal column give equal output entries. -/
theorem outRow_congr {w1s w1s' : (⟨2, ![256, 512]⟩ : Shape).Idx → EReal} {w1a w1a' : (⟨2, ![128, 512]⟩ : Shape).Idx → EReal}
    {b b' : (⟨2, ![3, 512]⟩ : Shape).Idx → EReal} {w2 w2' : (⟨2, ![512, 512]⟩ : Shape).Idx → EReal}
    {w3 w3' : (⟨2, ![512, 256]⟩ : Shape).Idx → EReal} {s s' : Fin 256 → EReal} {a a' : Fin 128 → EReal} {q q' : Fin 256}
    (h1 : w1s = w1s') (h2 : w1a = w1a') (h3 : b = b') (h4 : w2 = w2') (h5 : w3 = w3') (hs : s = s') (ha : a = a') (hq : q = q') :
    outRow w1s w1a b w2 w3 s a q = outRow w1s' w1a' b' w2' w3' s' a' q' := by
  subst h1 h2 h3 h4 h5 hs ha hq; rfl

/-- Equal argument arrays give equal results. -/
theorem G_congr {w1s w1s' : (⟨2, ![256, 512]⟩ : Shape).Idx → EReal} {w1a w1a' : (⟨2, ![128, 512]⟩ : Shape).Idx → EReal}
    {b b' : (⟨2, ![3, 512]⟩ : Shape).Idx → EReal} {w2 w2' : (⟨2, ![512, 512]⟩ : Shape).Idx → EReal}
    {w3 w3' : (⟨2, ![512, 256]⟩ : Shape).Idx → EReal} {s s' : (⟨2, ![65536, 256]⟩ : Shape).Idx → EReal}
    {a a' : (⟨2, ![65536, 128]⟩ : Shape).Idx → EReal}
    (h1 : w1s = w1s') (h2 : w1a = w1a') (h3 : b = b') (h4 : w2 = w2') (h5 : w3 = w3') (hs : s = s') (ha : a = a') :
    G w1s w1a b w2 w3 s a = G w1s' w1a' b' w2' w3' s' a' := by
  subst h1 h2 h3 h4 h5 hs ha; rfl

/-- A matrix product into the zero accumulator, read at `(p, c)`, when row `p` of the left operand is known entry by
    entry (`hg`) and the right operand is `w'` (`hw`): the sum over `k` of `g k · w' (k, c)`. -/
theorem dense_apply {M K N : ℕ} {φ₁ φ₂ : FTy}
    (wf : DotDims.WF ⟨2, ![M, K]⟩ ⟨2, ![K, N]⟩ ⟨2, ![M, N]⟩ [1] [0] [0] [1] [] [])
    (prec : Option ContractPrecision) (x : FVec Ideal ⟨2, ![M, K]⟩ φ₁) (w : FVec Ideal ⟨2, ![K, N]⟩ φ₂)
    (p : Fin M) (c : Fin N) (g : Fin K → EReal) (w' : (⟨2, ![K, N]⟩ : Shape).Idx → EReal)
    (hg : ∀ k, x (ix2 p k) = g k) (hw : w = w') :
    FloatOps.matmul (⟨[1], [0], [0], [1], [], [], wf⟩ : DotDims ⟨2, ![M, K]⟩ ⟨2, ![K, N]⟩ ⟨2, ![M, N]⟩) prec x w
        (constant ⟨2, ![M, N]⟩ .f32 0x00000000#32) (ix2 p c)
      = ∑ k : Fin K, g k * w' (ix2 k c) := by
  subst hw
  rw [Cert.RowOps.matmul_apply]
  exact Finset.sum_congr rfl fun k _ => by rw [hg k]

/-- Row `r` of the bias table, cut to its first `N` entries and spread over `[M, N]`, read at `(p, c)`: the
    table's entry `(r, c)`. -/
theorem biasRow_apply {M N : ℕ} (b : (⟨2, ![3, 512]⟩ : Shape).Idx → EReal) (r : ℕ)
    (hs : (⟨2, ![3, 512]⟩ : Shape).Slices ![r, 0] ⟨2, ![1, N]⟩) (hb : (⟨2, ![1, N]⟩ : Shape).Broadcasts ⟨2, ![M, N]⟩)
    (p : Fin M) (c : Fin N) (r' : Fin 3) (c' : Fin 512) (hr : r'.val = r) (hc : c'.val = c.val) :
    broadcastTo ⟨2, ![M, N]⟩ (extractStridedSlice ⟨2, ![1, N]⟩ ![r, 0] b hs) hb (ix2 p c) = b (ix2 r' c') := by
  rw [broadcastTo_1b_ab_apply]
  refine extractStridedSlice_apply _ b hs _ (ix2 r' c') fun ax => ?_
  match ax with
  | ⟨0, _⟩ => show r'.val = r + 0; omega
  | ⟨1, _⟩ => show c'.val = 0 + c.val; omega

end Cert.Mlp

end
-- ==== Proof.KernelPayload.lean ====
/-
  The kernel's body read at an index, and the arrays its weight windows stage.

  The body loads a block of 2048 rows of `state` and of `action`, the bias table, and the four weight arrays in their
  narrower float format (the host converted them before the launch); it narrows the activations and each hidden layer
  to that format before the next product. Over the extended reals a change of float format is the identity, so row
  `p` of the stored value is again the three layers of row `p` of the two activation blocks; and the four converted
  arrays hold what the weight arguments hold.
-/
import proofs.«165874_g2000503642115552_pallasbulk_442_2_alg».proof.Proof.Gen.KernelIdeal.Value
import proofs.«165874_g2000503642115552_pallasbulk_442_2_alg».proof.Proof.MlpSpec
import Idealize.ShloMosaic.Lib.StableHlo.Run

noncomputable section

namespace Cert.KernelIdeal.Closed

open Cert.KernelIdeal Cert.KernelIdeal.Gen Idealize.ShloMosaic Idealize.ShloMosaic.TcCoe Idealize.SL.Sem
open Idealize.ShloMosaic.ValueIdx

/-- The body's stored value at row `p`, column `q` of a block: the three layers of that row of the two activation
    blocks, with the weight and bias blocks as loaded. The narrowing of a product's left operand is read away entry by
    entry, and a weight block's cast to its own shape is the block. -/
theorem pay_apply (x0 : Vec Ideal S2048x256 .f32) (x1 : Vec Ideal S2048x128 .f32) (b : Vec Ideal S3x512 .f32)
    (w1s : Vec Ideal S256x512 .bf16) (w1a : Vec Ideal S128x512 .bf16) (w2 : Vec Ideal S512x512 .bf16)
    (w3 : Vec Ideal S512x256 .bf16) (p : Fin 2048) (q : Fin 256) :
    k0_pay1 (F := Ideal) x0 x1 b w1s w1a w2 w3 (ix2 p q)
      = Cert.Mlp.outRow w1s w1a b w2 w3 (fun j => x0 (ix2 p j)) (fun j => x1 (ix2 p j)) q := by
  unfold k0_pay1 Cert.Mlp.outRow
  refine congrArg₂ (· + ·) (Cert.Mlp.dense_apply _ none _ _ p q _ w3 (fun k => ?_) (shapeCast_self _ _))
    (Cert.Mlp.biasRow_apply b 2 _ _ p q 2 _ rfl rfl)
  refine (truncf_apply (φ := FTy.f32) (ψ := FTy.bf16) _ bitsLt_bf16_f32 _).trans ?_
  unfold Cert.Mlp.hid2
  refine congrArg₂ max (congrArg₂ (· + ·) (Cert.Mlp.dense_apply _ none _ _ p k _ w2 (fun j => ?_) (shapeCast_self _ _))
    (Cert.Mlp.biasRow_apply b 1 _ _ p k 1 k rfl rfl)) rfl
  refine (truncf_apply (φ := FTy.f32) (ψ := FTy.bf16) _ bitsLt_bf16_f32 _).trans ?_
  unfold Cert.Mlp.hid1
  exact congrArg₂ max (congrArg₂ (· + ·) (congrArg₂ (· + ·)
      (Cert.Mlp.dense_apply _ none _ _ p j _ w1s (fun _ => truncf_apply (φ := FTy.f32) (ψ := FTy.bf16) x0 bitsLt_bf16_f32 _) (shapeCast_self _ _))
      (Cert.Mlp.dense_apply _ none _ _ p j _ w1a (fun _ => truncf_apply (φ := FTy.f32) (ψ := FTy.bf16) x1 bitsLt_bf16_f32 _) (shapeCast_self _ _)))
    (Cert.Mlp.biasRow_apply b 0 _ _ p j 0 j rfl rfl)) rfl

/-! The arrays the four weight windows stage: the copies the host made in the narrower format. -/

abbrev aW1s : Ref sig .tc := main_call0_v0
abbrev aW1a : Ref sig .tc := main_call0_v1
abbrev aW2 : Ref sig .tc := main_call0_v2
abbrev aW3 : Ref sig .tc := main_call0_v3

variable (m : (ℓ : Loc nD τ sig) → Buf (Elt Ideal) ℓ)

/-! When the region is entered each copy holds, as extended reals, what its weight argument holds. -/

theorem conv_w1s (c : Dev nD) :
    (V m c aW1s : S256x512.Idx → EReal) = (m ((c : Thread nD τ).loc main_arg2) : S256x512.Idx → EReal) := by
  dsimp only [Gen.V, Gen.hostOps0]; after_results; rfl

theorem conv_w1a (c : Dev nD) :
    (V m c aW1a : S128x512.Idx → EReal) = (m ((c : Thread nD τ).loc main_arg3) : S128x512.Idx → EReal) := by
  dsimp only [Gen.V, Gen.hostOps0]; after_results; rfl

theorem conv_w2 (c : Dev nD) :
    (V m c aW2 : S512x512.Idx → EReal) = (m ((c : Thread nD τ).loc main_arg5) : S512x512.Idx → EReal) := by
  dsimp only [Gen.V, Gen.hostOps0]; after_results; rfl

theorem conv_w3 (c : Dev nD) :
    (V m c aW3 : S512x256.Idx → EReal) = (m ((c : Thread nD τ).loc main_arg6) : S512x256.Idx → EReal) := by
  dsimp only [Gen.V, Gen.hostOps0]; after_results; rfl

end Cert.KernelIdeal.Closed

end
-- ==== Proof.KernelBlocks.lean ====
/-
  From blocks to the whole result array, for the kernel.

  The result's window takes block `t` (2048 rows) at grid point `t`, the two activation windows the same rows of their
  arrays, and the weight and bias windows their whole arrays at every point. So what point `t` writes back is block
  `t` of `G` of the arrays as the region finds them, the 32 blocks cover the result array, and the array after the
  run is `G`.
-/
import proofs.«165874_g2000503642115552_pallasbulk_442_2_alg».proof.Proof.KernelPayload

noncomputable section

namespace Cert.KernelIdeal.Closed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arrays the region finds. -/
abbrev Gm (c : Dev nD) : S65536x256.Idx → EReal :=
  Cert.Mlp.G (V m c aW1s) (V m c aW1a) (V m c main_arg4) (V m c aW2) (V m c aW3) (V m c main_arg0) (V m c main_arg1)

/-- The index maps over the 32 grid points: the two activation windows and the result window take block `t` of the
    rows at point `t`; the weight and bias windows always take their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every block of rows is some point's. -/
theorem idx_onto : ∀ q0 : Fin 32, ∃ t : Fin cfg0.N, t.val = q0.val :=
  (by decide +kernel : ∀ q0 : Fin 32, ∃ t : Fin grid0.N, t.val = q0.val)

/-! A window that takes its whole array at every point holds that array. -/

theorem blk2 (c : Dev nD) (t : Fin cfg0.N) : (iblk m c 2 t : S256x512.Idx → EReal) = V m c aW1s := by
  obtain ⟨-, -, -, -, e0, e1, -⟩ := idx_facts t
  funext y
  show V m c aW1s (((cfg0.win 2).blk t).view.emb y) = V m c aW1s y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 512 + 1 * (y 1).val = (y 1).val; omega

theorem blk3 (c : Dev nD) (t : Fin cfg0.N) : (iblk m c 3 t : S128x512.Idx → EReal) = V m c aW1a := by
  obtain ⟨-, -, -, -, -, -, e0, e1, -⟩ := idx_facts t
  funext y
  show V m c aW1a (((cfg0.win 3).blk t).view.emb y) = V m c aW1a y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 512 + 1 * (y 1).val = (y 1).val; omega

theorem blk4 (c : Dev nD) (t : Fin cfg0.N) : (iblk m c 4 t : S3x512.Idx → EReal) = V m c main_arg4 := by
  obtain ⟨-, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 3 + 1 * (y 0).val = (y 0).val; omega
  | ⟨1, _⟩ => show win0_4.index t (1 : Fin 2) * 512 + 1 * (y 1).val = (y 1).val; omega

theorem blk5 (c : Dev nD) (t : Fin cfg0.N) : (iblk m c 5 t : S512x512.Idx → EReal) = V m c aW2 := by
  obtain ⟨-, -, -, -, -, -, -, -, -, -, e0, e1, -⟩ := idx_facts t
  funext y
  show V m c aW2 (((cfg0.win 5).blk t).view.emb y) = V m c aW2 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem blk6 (c : Dev nD) (t : Fin cfg0.N) : (iblk m c 6 t : S512x256.Idx → EReal) = V m c aW3 := by
  obtain ⟨-, -, -, -, -, -, -, -, -, -, -, -, e0, e1, -⟩ := idx_facts t
  funext y
  show V m c aW3 (((cfg0.win 6).blk t).view.emb y) = V m c aW3 y
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 256 + 1 * (y 1).val = (y 1).val; omega

/-- What point `t` writes back is block `t` of `G` of the arrays the region finds: row `p` of the block is row
    `2048·t + p` of the result, computed from row `2048·t + p` of the two activation arrays. -/
theorem flushed_eq (c : Dev nD) (t : Fin cfg0.N) :
    (dats m 0 c).flushed 7 t = ((cfg0.win 7).blk t).view.read (Elt Ideal) (Gm m c) := by
  rw [Value.flushed7]
  unfold out0_7
  rw [View.canon_unit_zero hz]
  simp only [View.ld_unit_zero (S := S2048x256) hz, View.ld_unit_zero (S := S2048x128) hz, View.ld_unit_zero (S := S3x512) hz,
    View.ld_unit_zero (S := S256x512) hz, View.ld_unit_zero (S := S128x512) hz, View.ld_unit_zero (S := S512x512) hz,
    View.ld_unit_zero (S := S512x256) hz]
  obtain ⟨e00, e01, e10, e11, -, -, -, -, -, -, -, -, -, -, e70, e71⟩ := idx_facts t
  funext j
  show k0_pay1 (F := Ideal) (iblk m c 0 t) (iblk m c 1 t) (iblk m c 4 t) (iblk m c 2 t) (iblk m c 3 t) (iblk m c 5 t) (iblk m c 6 t) j
    = Gm m c (((cfg0.win 7).blk t).view.emb j)
  refine (congrArg _ (eq_ix2 j)).trans ?_
  refine (pay_apply _ _ _ _ _ _ _ (j 0) (j 1)).trans ?_
  refine Cert.Mlp.outRow_congr (blk2 m c t) (blk3 m c t) (blk4 m c t) (blk5 m c t) (blk6 m c t) ?_ ?_ ?_
  · funext k
    show V m c main_arg0 (((cfg0.win 0).blk t).view.emb (ix2 (j 0) k)) = V m c main_arg0 (ix2 ((((cfg0.win 7).blk t).view.emb j) 0) k)
    refine congrArg _ (funext fun a => Fin.ext ?_)
    match a with
    | ⟨0, _⟩ => show win0_0.index t (0 : Fin 2) * 2048 + 1 * (j 0).val = win0_7.index t (0 : Fin 2) * 2048 + 1 * (j 0).val; omega
    | ⟨1, _⟩ => show win0_0.index t (1 : Fin 2) * 256 + 1 * k.val = k.val; omega
  · funext k
    show V m c main_arg1 (((cfg0.win 1).blk t).view.emb (ix2 (j 0) k)) = V m c main_arg1 (ix2 ((((cfg0.win 7).blk t).view.emb j) 0) k)
    refine congrArg _ (funext fun a => Fin.ext ?_)
    match a with
    | ⟨0, _⟩ => show win0_1.index t (0 : Fin 2) * 2048 + 1 * (j 0).val = win0_7.index t (0 : Fin 2) * 2048 + 1 * (j 0).val; omega
    | ⟨1, _⟩ => show win0_1.index t (1 : Fin 2) * 128 + 1 * k.val = k.val; omega
  · refine Fin.ext ?_
    show (j 1).val = win0_7.index t (1 : Fin 2) * 256 + 1 * (j 1).val
    omega

/-- An index of the result array is in point `t`'s block iff each coordinate is in the block's range on its axis. -/
theorem mem_blk (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v0).slice (win0_7.rect t)).set ↔ _
  rw [View.set_slice_whole, Rect.mem_set_unit]
  exact Iff.rfl

/-- The 32 blocks of 2048 rows cover the result array: row `r` lies in block `r / 2048`. -/
theorem cover (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ := idx_onto ⟨(i 0).val / 2048, by omega⟩
  have ht' : t.val = (i 0).val / 2048 := ht
  obtain ⟨-, -, -, -, -, -, -, -, -, -, -, -, -, -, e70, e71⟩ := idx_facts t
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

/-- The result array after the run is `G` of the arrays the region finds. -/
theorem final (c : Dev nD) : (dats m 0 c).arrAt 7 cfg0.N = Gm m c :=
  (dats m 0 c).arrAt_eq_of_cover 7 (Gm m c) (fun t _ => flushed_eq m c t) cover

/-- Every weakly fair execution ends with the result array at `G` and the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Closed

end
-- ==== Proof.ReferencePayload.lean ====
/-
  The reference's kernel body read at an index.

  The body loads a block of 1024 rows of `state` and of `action` and the whole weight and bias arrays, and stores
  one value: three matrix products into zero accumulators with a bias row added after each and the rectifier after the
  first two. Row `p` of that value is the three layers of row `p` of the two activation blocks.
-/
import proofs.«165874_g2000503642115552_pallasbulk_442_2_alg».proof.Proof.Gen.ReferenceIdeal.Value
import proofs.«165874_g2000503642115552_pallasbulk_442_2_alg».proof.Proof.MlpSpec

noncomputable section

namespace Cert.ReferenceIdeal.Closed

open Cert.ReferenceIdeal Cert.ReferenceIdeal.Gen Idealize.ShloMosaic Idealize.ShloMosaic.TcCoe Idealize.SL.Sem
open Idealize.ShloMosaic.ValueIdx

/-- The body's stored value at row `p`, column `q` of a block: the three layers of that row of the two activation
    blocks, with the weight and bias blocks as loaded. -/
theorem pay_apply (x0 : Vec Ideal S1024x256 .f32) (x1 : Vec Ideal S1024x128 .f32) (b : Vec Ideal S3x512 .f32)
    (w1s : Vec Ideal S256x512 .f32) (w1a : Vec Ideal S128x512 .f32) (w2 : Vec Ideal S512x512 .f32)
    (w3 : Vec Ideal S512x256 .f32) (p : Fin 1024) (q : Fin 256) :
    k0_pay1 (F := Ideal) x0 x1 b w1s w1a w2 w3 (ix2 p q)
      = Cert.Mlp.outRow w1s w1a b w2 w3 (fun j => x0 (ix2 p j)) (fun j => x1 (ix2 p j)) q := by
  unfold k0_pay1 Cert.Mlp.outRow
  refine congrArg₂ (· + ·) (Cert.Mlp.dense_apply _ none _ w3 p q _ w3 (fun k => ?_) rfl)
    (Cert.Mlp.biasRow_apply b 2 _ _ p q 2 _ rfl rfl)
  unfold Cert.Mlp.hid2
  refine congrArg₂ max (congrArg₂ (· + ·) (Cert.Mlp.dense_apply _ none _ w2 p k _ w2 (fun j => ?_) rfl)
    (Cert.Mlp.biasRow_apply b 1 _ _ p k 1 k rfl rfl)) rfl
  unfold Cert.Mlp.hid1
  exact congrArg₂ max (congrArg₂ (· + ·) (congrArg₂ (· + ·)
      (Cert.Mlp.dense_apply _ none x0 w1s p j _ w1s (fun _ => rfl) rfl)
      (Cert.Mlp.dense_apply _ none x1 w1a p j _ w1a (fun _ => rfl) rfl))
    (Cert.Mlp.biasRow_apply b 0 _ _ p j 0 j rfl rfl)) rfl

/-! The arrays the four weight windows stage: here the weight arguments themselves. -/

abbrev aW1s : Ref sig .tc := main_arg2
abbrev aW1a : Ref sig .tc := main_arg3
abbrev aW2 : Ref sig .tc := main_arg5
abbrev aW3 : Ref sig .tc := main_arg6

end Cert.ReferenceIdeal.Closed

end
-- ==== Proof.ReferenceBlocks.lean ====
/-
  From blocks to the whole result array, for the reference's kernel.

  The result's window takes block `t` (1024 rows) at grid point `t`, the two activation windows the same rows of their
  arrays, and the weight and bias windows their whole arrays at every point. So what point `t` writes back is block
  `t` of `G` of the arrays as the region finds them, the 64 blocks cover the result array, and the array after the
  run is `G`.
-/
import proofs.«165874_g2000503642115552_pallasbulk_442_2_alg».proof.Proof.ReferencePayload

noncomputable section

namespace Cert.ReferenceIdeal.Closed

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arrays the region finds. -/
abbrev Gm (c : Dev nD) : S65536x256.Idx → EReal :=
  Cert.Mlp.G (V m c aW1s) (V m c aW1a) (V m c main_arg4) (V m c aW2) (V m c aW3) (V m c main_arg0) (V m c main_arg1)

/-- The index maps over the 64 grid points: the two activation windows and the result window take block `t` of the
    rows at point `t`; the weight and bias windows always take their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every block of rows is some point's. -/
theorem idx_onto : ∀ q0 : Fin 64, ∃ t : Fin cfg0.N, t.val = q0.val :=
  (by decide +kernel : ∀ q0 : Fin 64, ∃ t : Fin grid0.N, t.val = q0.val)

/-! A window that takes its whole array at every point holds that array. -/

theorem blk2 (c : Dev nD) (t : Fin cfg0.N) : (iblk m c 2 t : S256x512.Idx → EReal) = V m c aW1s := by
  obtain ⟨-, -, -, -, e0, e1, -⟩ := idx_facts t
  funext y
  show V m c aW1s (((cfg0.win 2).blk t).view.emb y) = V m c aW1s y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 512 + 1 * (y 1).val = (y 1).val; omega

theorem blk3 (c : Dev nD) (t : Fin cfg0.N) : (iblk m c 3 t : S128x512.Idx → EReal) = V m c aW1a := by
  obtain ⟨-, -, -, -, -, -, e0, e1, -⟩ := idx_facts t
  funext y
  show V m c aW1a (((cfg0.win 3).blk t).view.emb y) = V m c aW1a y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 512 + 1 * (y 1).val = (y 1).val; omega

theorem blk4 (c : Dev nD) (t : Fin cfg0.N) : (iblk m c 4 t : S3x512.Idx → EReal) = V m c main_arg4 := by
  obtain ⟨-, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 3 + 1 * (y 0).val = (y 0).val; omega
  | ⟨1, _⟩ => show win0_4.index t (1 : Fin 2) * 512 + 1 * (y 1).val = (y 1).val; omega

theorem blk5 (c : Dev nD) (t : Fin cfg0.N) : (iblk m c 5 t : S512x512.Idx → EReal) = V m c aW2 := by
  obtain ⟨-, -, -, -, -, -, -, -, -, -, e0, e1, -⟩ := idx_facts t
  funext y
  show V m c aW2 (((cfg0.win 5).blk t).view.emb y) = V m c aW2 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem blk6 (c : Dev nD) (t : Fin cfg0.N) : (iblk m c 6 t : S512x256.Idx → EReal) = V m c aW3 := by
  obtain ⟨-, -, -, -, -, -, -, -, -, -, -, -, e0, e1, -⟩ := idx_facts t
  funext y
  show V m c aW3 (((cfg0.win 6).blk t).view.emb y) = V m c aW3 y
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 256 + 1 * (y 1).val = (y 1).val; omega

/-- What point `t` writes back is block `t` of `G` of the arrays the region finds: row `p` of the block is row
    `1024·t + p` of the result, computed from row `1024·t + p` of the two activation arrays. -/
theorem flushed_eq (c : Dev nD) (t : Fin cfg0.N) :
    (dats m 0 c).flushed 7 t = ((cfg0.win 7).blk t).view.read (Elt Ideal) (Gm m c) := by
  rw [Value.flushed7]
  unfold out0_7
  rw [View.canon_unit_zero hz]
  simp only [View.ld_unit_zero (S := S1024x256) hz, View.ld_unit_zero (S := S1024x128) hz, View.ld_unit_zero (S := S3x512) hz,
    View.ld_unit_zero (S := S256x512) hz, View.ld_unit_zero (S := S128x512) hz, View.ld_unit_zero (S := S512x512) hz,
    View.ld_unit_zero (S := S512x256) hz]
  obtain ⟨e00, e01, e10, e11, -, -, -, -, -, -, -, -, -, -, e70, e71⟩ := idx_facts t
  funext j
  show k0_pay1 (F := Ideal) (iblk m c 0 t) (iblk m c 1 t) (iblk m c 4 t) (iblk m c 2 t) (iblk m c 3 t) (iblk m c 5 t) (iblk m c 6 t) j
    = Gm m c (((cfg0.win 7).blk t).view.emb j)
  refine (congrArg _ (eq_ix2 j)).trans ?_
  refine (pay_apply _ _ _ _ _ _ _ (j 0) (j 1)).trans ?_
  refine Cert.Mlp.outRow_congr (blk2 m c t) (blk3 m c t) (blk4 m c t) (blk5 m c t) (blk6 m c t) ?_ ?_ ?_
  · funext k
    show V m c main_arg0 (((cfg0.win 0).blk t).view.emb (ix2 (j 0) k)) = V m c main_arg0 (ix2 ((((cfg0.win 7).blk t).view.emb j) 0) k)
    refine congrArg _ (funext fun a => Fin.ext ?_)
    match a with
    | ⟨0, _⟩ => show win0_0.index t (0 : Fin 2) * 1024 + 1 * (j 0).val = win0_7.index t (0 : Fin 2) * 1024 + 1 * (j 0).val; omega
    | ⟨1, _⟩ => show win0_0.index t (1 : Fin 2) * 256 + 1 * k.val = k.val; omega
  · funext k
    show V m c main_arg1 (((cfg0.win 1).blk t).view.emb (ix2 (j 0) k)) = V m c main_arg1 (ix2 ((((cfg0.win 7).blk t).view.emb j) 0) k)
    refine congrArg _ (funext fun a => Fin.ext ?_)
    match a with
    | ⟨0, _⟩ => show win0_1.index t (0 : Fin 2) * 1024 + 1 * (j 0).val = win0_7.index t (0 : Fin 2) * 1024 + 1 * (j 0).val; omega
    | ⟨1, _⟩ => show win0_1.index t (1 : Fin 2) * 128 + 1 * k.val = k.val; omega
  · refine Fin.ext ?_
    show (j 1).val = win0_7.index t (1 : Fin 2) * 256 + 1 * (j 1).val
    omega

/-- An index of the result array is in point `t`'s block iff each coordinate is in the block's range on its axis. -/
theorem mem_blk (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0).slice (win0_7.rect t)).set ↔ _
  rw [View.set_slice_whole, Rect.mem_set_unit]
  exact Iff.rfl

/-- The 64 blocks of 1024 rows cover the result array: row `r` lies in block `r / 1024`. -/
theorem cover (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ := idx_onto ⟨(i 0).val / 1024, by omega⟩
  have ht' : t.val = (i 0).val / 1024 := ht
  obtain ⟨-, -, -, -, -, -, -, -, -, -, -, -, -, -, e70, e71⟩ := idx_facts t
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- The result array after the run is `G` of the arrays the region finds. -/
theorem final (c : Dev nD) : (dats m 0 c).arrAt 7 cfg0.N = Gm m c :=
  (dats m 0 c).arrAt_eq_of_cover 7 (Gm m c) (fun t _ => flushed_eq m c t) cover

/-- Every weakly fair execution ends with the result array at `G` and the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ReferenceIdeal.Closed

end
-- ==== Proof.lean ====
/-
  A three-layer perceptron over 65536 rows, `out = relu(relu(s·W1s + a·W1a + b0)·W2 + b1)·W3 + b2`, computed by two
  Pallas kernels that differ in two ways only: the kernel cuts the rows into 32 blocks of 2048 and narrows every
  product's operands to a shorter float format (the weights once on the host, the activations and hidden layers in
  the body); the reference cuts them into 64 blocks of 1024 and multiplies in the wide format.

  Over the extended reals a change of float format is the identity and a matrix product into a zero accumulator is the
  sum over the contracted index, so each body's stored value at row `p` is the same function of row `p` of its two
  activation blocks (the per-program payload modules). A row of a block is a row of the whole array, so each point
  writes back its block of ONE whole-array function `G` of the arrays the region finds (the blocks modules), the
  blocks cover the result, and both programs end with the result array at `G` of their arguments: the kernel's four
  converted weight arrays hold what the weight arguments hold. No algebraic law joins the two sides beyond that, and
  the precondition is not used.

  The three frames are the generated ones; the ideal pass rewrote nothing, so `preserves` is `True`.
-/
import proofs.«165874_g2000503642115552_pallasbulk_442_2_alg».proof.Defs
import proofs.«165874_g2000503642115552_pallasbulk_442_2_alg».proof.Proof.Gen.Kernel
import proofs.«165874_g2000503642115552_pallasbulk_442_2_alg».proof.Proof.Gen.Kernel.Frame
import proofs.«165874_g2000503642115552_pallasbulk_442_2_alg».proof.Proof.Gen.KernelIdeal
import proofs.«165874_g2000503642115552_pallasbulk_442_2_alg».proof.Proof.Gen.KernelIdeal.Frame
import proofs.«165874_g2000503642115552_pallasbulk_442_2_alg».proof.Proof.Gen.ReferenceIdeal
import proofs.«165874_g2000503642115552_pallasbulk_442_2_alg».proof.Proof.Gen.ReferenceIdeal.Frame
import proofs.«165874_g2000503642115552_pallasbulk_442_2_alg».proof.Proof.Gen.Pre_finite_inputs
import proofs.«165874_g2000503642115552_pallasbulk_442_2_alg».proof.Proof.KernelBlocks
import proofs.«165874_g2000503642115552_pallasbulk_442_2_alg».proof.Proof.ReferenceBlocks

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

theorem preserves : Cert.preserves_Kernel_KernelIdeal := trivial

section
open Cert.KernelIdeal Cert.KernelIdeal.Gen Cert.KernelIdeal.Closed

/-- The kernel's result as a function of its ARGUMENTS: the converted weight arrays hold the weight arguments'
    entries, and no host operation writes the activations or the bias table. -/
theorem kernel_G (m : (ℓ : Loc nD τ sig) → Buf (Elt Ideal) ℓ) (c : Dev nD) :
    Gm m c = Cert.Mlp.G (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg0)) (m ((c : Thread nD τ).loc main_arg1)) :=
  Cert.Mlp.G_congr (conv_w1s m c) (conv_w1a m c) (V_main_arg4 m c) (conv_w2 m c) (conv_w3 m c) (V_main_arg0 m c)
    (V_main_arg1 m c)

end

/-- From memories agreeing on the arguments both programs end with the result array at `G` of the kernel's
    arguments: the kernel by its run and `kernel_G`, the reference by its run at arguments that agree. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_G m c), (h c).2⟩)
      (Cert.KernelIdeal.Closed.run m ρ)
  · refine (θ_run Cert.ReferenceIdeal.defs _ _).mono (fun _ h c => ⟨(h c).1.trans ?_, (h c).2⟩)
      (Cert.ReferenceIdeal.Closed.run m' ρ')
    obtain ⟨h0, h1, h2, h3, h4, h5, h6⟩ := hagree c
    exact Cert.Mlp.G_congr h2 h3 h4 h5 h6 h0 h1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
